-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x2 : Shape := ⟨2, ![1048576, 2]⟩
abbrev S8x360 : Shape := ⟨2, ![8, 360]⟩
abbrev S360 : Shape := ⟨1, ![360]⟩
abbrev S_ : Shape := ⟨0, ![]⟩

class Facts : Prop where
  bcast_S_S1048576x2 : S_.BroadcastsInDim S1048576x2 (![] : Fin 0 → Fin S1048576x2.rank)
  reducesTo_S1048576x2_S_d0_1 : S1048576x2.ReducesTo [0, 1] S_
  h_S_ : 0 < S_.numel
  bcast_S_S8x360 : S_.BroadcastsInDim S8x360 (![] : Fin 0 → Fin S8x360.rank)
  reducesTo_S8x360_S_d0_1 : S8x360.ReducesTo [0, 1] S_
  bcast_S_S360 : S_.BroadcastsInDim S360 (![] : Fin 0 → Fin S360.rank)
  reducesTo_S360_S_d0 : S360.ReducesTo [0] S_

variable [Facts]

def fn {F : FTy → Type} [FloatOps F] (main_arg0 : FVec F S1048576x2 .f32) (main_arg1 : FVec F S8x360 .f32) (main_arg2 : FVec F S360 .f32) : IVec S_ 1 :=
  let main_v0 : FVec F S1048576x2 .f32 := Host.absf main_arg0
  let main_cst : FVec F S_ .f32 := constant S_ .f32 0x7F800000#32
  let main_v1 : FVec F S1048576x2 .f32 := broadcastInDim S1048576x2 ![] bcast_S_S1048576x2 main_cst
  let main_v2 : IVec S1048576x2 1 := cmpf .olt main_v0 main_v1
  let main_c : IVec S_ 1 := constantI S_ 1 1#1
  let main_v3 : IVec S_ 1 := (fun x v => Host.reduce IntOp.andi x v reducesTo_S1048576x2_S_d0_1 h_S_) main_v2 main_c
  let main_v4 : FVec F S8x360 .f32 := Host.absf main_arg1
  let main_cst_0 : FVec F S_ .f32 := constant S_ .f32 0x7F800000#32
  let main_v5 : FVec F S8x360 .f32 := broadcastInDim S8x360 ![] bcast_S_S8x360 main_cst_0
  let main_v6 : IVec S8x360 1 := cmpf .olt main_v4 main_v5
  let main_c_1 : IVec S_ 1 := constantI S_ 1 1#1
  let main_v7 : IVec S_ 1 := (fun x v => Host.reduce IntOp.andi x v reducesTo_S8x360_S_d0_1 h_S_) main_v6 main_c_1
  let main_v8 : IVec S_ 1 := andi main_v3 main_v7
  let main_v9 : FVec F S360 .f32 := Host.absf main_arg2
  let main_cst_2 : FVec F S_ .f32 := constant S_ .f32 0x7F800000#32
  let main_v10 : FVec F S360 .f32 := broadcastInDim S360 ![] bcast_S_S360 main_cst_2
  let main_v11 : IVec S360 1 := cmpf .olt main_v9 main_v10
  let main_c_3 : IVec S_ 1 := constantI S_ 1 1#1
  let main_v12 : IVec S_ 1 := (fun x v => Host.reduce IntOp.andi x v reducesTo_S360_S_d0 h_S_) main_v11 main_c_3
  let main_v13 : IVec S_ 1 := andi main_v8 main_v12
  main_v13
-- ==== Kernel.lean ====
abbrev S1048576x2 : Shape := ⟨2, ![1048576, 2]⟩
abbrev S8x360 : Shape := ⟨2, ![8, 360]⟩
abbrev S360 : Shape := ⟨1, ![360]⟩
abbrev S262144x8 : Shape := ⟨2, ![262144, 8]⟩
abbrev S262144x360 : Shape := ⟨2, ![262144, 360]⟩
abbrev S4096x8 : Shape := ⟨2, ![4096, 8]⟩
abbrev S4096x360 : Shape := ⟨2, ![4096, 360]⟩
abbrev S1x360 : Shape := ⟨2, ![1, 360]⟩
abbrev S262144x180x1x2 : Shape := ⟨4, ![262144, 180, 1, 2]⟩

abbrev nBuf : Space → Nat
  | .hbm => 6
  | .vmem => 6
  | .smem => 0
  | _ => 0

abbrev bufTy : (tb : Table) → Fin (tcTables nBuf tb) → BufTy
  | .hbm, ⟨0, _⟩ => ⟨S1048576x2, .f32⟩
  | .hbm, ⟨1, _⟩ => ⟨S8x360, .f32⟩
  | .hbm, ⟨2, _⟩ => ⟨S360, .f32⟩
  | .hbm, ⟨3, _⟩ => ⟨S262144x8, .f32⟩
  | .hbm, ⟨4, _⟩ => ⟨S262144x360, .f32⟩
  | .hbm, ⟨5, _⟩ => ⟨S262144x180x1x2, .f32⟩
  | .local _ .vmem, ⟨0, _⟩ => ⟨S4096x8, .f32⟩
  | .local _ .vmem, ⟨1, _⟩ => ⟨S4096x8, .f32⟩
  | .local _ .vmem, ⟨2, _⟩ => ⟨S8x360, .f32⟩
  | .local _ .vmem, ⟨3, _⟩ => ⟨S360, .f32⟩
  | .local _ .vmem, ⟨4, _⟩ => ⟨S4096x360, .f32⟩
  | .local _ .vmem, ⟨5, _⟩ => ⟨S4096x360, .f32⟩
  | _, _ => ⟨S1048576x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x360 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S360 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x360 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S1048576x2_S262144x8 : S1048576x2.ShapeCasts S262144x8
  inb_S4096x8_S4096x8_0_0 : ∀ a, (![0, 0] : Fin 2 → Nat) a + S4096x8.size a ≤ S4096x8.size a
  h_S4096x8 : 0 < S4096x8.numel
  shapeCasts_S4096x8_S4096x8 : S4096x8.ShapeCasts S4096x8
  bitsLt_bf16_f32 : FTy.bits .bf16 < FTy.bits .f32
  inb_S8x360_S8x360_0_0 : ∀ a, (![0, 0] : Fin 2 → Nat) a + S8x360.size a ≤ S8x360.size a
  h_S8x360 : 0 < S8x360.numel
  inb_S360_S360_0 : ∀ a, (![0] : Fin 1 → Nat) a + S360.size a ≤ S360.size a
  h_S360 : 0 < S360.numel
  shapeCasts_S360_S1x360 : S360.ShapeCasts S1x360
  broadcasts_S1x360_S4096x360 : S1x360.Broadcasts S4096x360
  inb_S4096x360_S4096x360_0_0 : ∀ a, (![0, 0] : Fin 2 → Nat) a + S4096x360.size a ≤ S4096x360.size a
  h_S4096x360 : 0 < S4096x360.numel
  shapeCasts_S262144x360_S262144x180x1x2 : S262144x360.ShapeCasts S262144x180x1x2
  dot_S4096x8_S8x360_S4096x360_1_0_0_1_n_n_wf : DotDims.WF S4096x8 S8x360 S4096x360 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x8.size a ≤ S262144x8.size a
  hwx0_0 : ∀ i : grid0.Coords, EltTy.bits .f32 = 32 ∨ (Rect.block (s := S262144x8) S4096x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x360.size a ≤ S8x360.size a
  hwx0_1 : ∀ i : grid0.Coords, EltTy.bits .f32 = 32 ∨ (Rect.block (s := S8x360) S8x360.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S360.size a ≤ S360.size a
  hwx0_2 : ∀ i : grid0.Coords, EltTy.bits .f32 = 32 ∨ (Rect.block (s := S360) S360.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x360.size a ≤ S262144x360.size a
  hwx0_3 : ∀ i : grid0.Coords, EltTy.bits .f32 = 32 ∨ (Rect.block (s := S262144x360) S4096x360.size (cc0_transform_3 i) (hinb0_3 i)).WholeWords (EltTy.packing .f32)

variable [Facts₀]

def dot_S4096x8_S8x360_S4096x360_1_0_0_1_n_n : DotDims S4096x8 S8x360 S4096x360 where
  lhsContracting := [1]
  rhsContracting := [0]
  lhsNonContracting := [0]
  rhsNonContracting := [1]
  lhsBatch := []
  rhsBatch := []
  wf := dot_S4096x8_S8x360_S4096x360_1_0_0_1_n_n_wf

abbrev win0_0 : Pipeline.Window sig grid0 :=
  Pipeline.Window.ofSpec (Memref.whole main_v0) S4096x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x360.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S360.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S4096x360.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1048576x2 : Shape := ⟨2, ![1048576, 2]⟩
abbrev S8x360 : Shape := ⟨2, ![8, 360]⟩
abbrev S360 : Shape := ⟨1, ![360]⟩
abbrev S_ : Shape := ⟨0, ![]⟩
abbrev S262144x8 : Shape := ⟨2, ![262144, 8]⟩
abbrev S262144x360 : Shape := ⟨2, ![262144, 360]⟩
abbrev S1x360 : Shape := ⟨2, ![1, 360]⟩
abbrev S262144x180x1x2 : Shape := ⟨4, ![262144, 180, 1, 2]⟩

abbrev nBuf : Space → Nat
  | .hbm => 15
  | .vmem => 0
  | .smem => 0
  | _ => 0

abbrev bufTy : (tb : Table) → Fin (tcTables nBuf tb) → BufTy
  | .hbm, ⟨0, _⟩ => ⟨S1048576x2, .f32⟩
  | .hbm, ⟨1, _⟩ => ⟨S8x360, .f32⟩
  | .hbm, ⟨2, _⟩ => ⟨S360, .f32⟩
  | .hbm, ⟨3, _⟩ => ⟨S_, .i32⟩
  | .hbm, ⟨4, _⟩ => ⟨S_, .f32⟩
  | .hbm, ⟨5, _⟩ => ⟨S1048576x2, .f32⟩
  | .hbm, ⟨6, _⟩ => ⟨S262144x8, .f32⟩
  | .hbm, ⟨7, _⟩ => ⟨S262144x360, .f32⟩
  | .hbm, ⟨8, _⟩ => ⟨S1x360, .f32⟩
  | .hbm, ⟨9, _⟩ => ⟨S262144x360, .f32⟩
  | .hbm, ⟨10, _⟩ => ⟨S262144x360, .f32⟩
  | .hbm, ⟨11, _⟩ => ⟨S_, .f32⟩
  | .hbm, ⟨12, _⟩ => ⟨S262144x360, .f32⟩
  | .hbm, ⟨13, _⟩ => ⟨S262144x360, .f32⟩
  | .hbm, ⟨14, _⟩ => ⟨S262144x180x1x2, .f32⟩
  | _, _ => ⟨S1048576x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call1_cst : Ref sig .tc := ⟨.hbm, 11, rfl⟩
abbrev main_call1_v0 : Ref sig .tc := ⟨.hbm, 12, rfl⟩
abbrev main_v6 : Ref sig .tc := ⟨.hbm, 13, rfl⟩
abbrev main_v7 : Ref sig .tc := ⟨.hbm, 14, rfl⟩

abbrev nD : Nat := 1
abbrev τ : Topo := Topo.v7x

variable {F : FTy → Type} [FloatOps F]

class Facts₀ : Prop where
  pads_S1048576x2_S1048576x2_000_000 : S1048576x2.Pads (![0, 0] : Fin 2 → Nat) ![0, 0] ![0, 0] S1048576x2
  h_S_ : 0 < S_.numel
  shapeCasts_S1048576x2_S262144x8 : S1048576x2.ShapeCasts S262144x8
  bcast_S360_S1x360_1 : S360.BroadcastsInDim S1x360 (![1] : Fin 1 → Fin S1x360.rank)
  bcast_S1x360_S262144x360_0_1 : S1x360.BroadcastsInDim S262144x360 (![0, 1] : Fin 2 → Fin S262144x360.rank)
  bcast_S_S262144x360 : S_.BroadcastsInDim S262144x360 (![] : Fin 0 → Fin S262144x360.rank)
  shapeCasts_S262144x360_S262144x180x1x2 : S262144x360.ShapeCasts S262144x180x1x2
  dot_S262144x8_S8x360_S262144x360_1_0_0_1_n_n_wf : DotDims.WF S262144x8 S8x360 S262144x360 [1] [0] [0] [1] [] []

variable [Facts₀]

def dot_S262144x8_S8x360_S262144x360_1_0_0_1_n_n : DotDims S262144x8 S8x360 S262144x360 where
  lhsContracting := [1]
  rhsContracting := [0]
  lhsNonContracting := [0]
  rhsNonContracting := [1]
  lhsBatch := []
  rhsBatch := []
  wf := dot_S262144x8_S8x360_S262144x360_1_0_0_1_n_n_wf

class Facts : Prop extends Facts₀ where

variable [Facts]
-- ==== Proof.Spec.lean ====
/-
  The function both programs compute. The input `x : [1048576, 2]` is read, row-major, as a matrix `xf : [262144, 8]`
  (four consecutive rows of `x` make one row of `xf`); entry `(r, j)` of the `[262144, 360]` layer output is

      max (∑ k : Fin 8, xf (r, k) · W (k, j) + b j) 0

  over the extended reals: a dense layer with bias followed by a rectifier. The result is that matrix read, row-major
  again, as `[262144, 180, 1, 2]`. The same formula over a matrix of any number `n` of rows is `rowsOut`: the kernel
  evaluates it on blocks of 4096 rows, the reference on all 262144 at once, and row `r` of the output depends on row `r`
  of `xf` only, which is all that joins the two (`rowsOut_congr`). No law of arithmetic is used, so finiteness of the
  inputs plays no part.
-/
import Idealize.ShloMosaic.PureOps.Ideal
import Idealize.ShloMosaic.Lib.ValueIdx

noncomputable section

namespace Cert.DenseRelu

open Idealize.ShloMosaic Idealize.ShloMosaic.ValueIdx

/-- The rectified dense layer on a matrix of `n` rows: entry `(r, j)` is `max (∑ k, xf (r, k) · W (k, j) + b j) 0`, the
    zero being the value of the all-zero f32 word. -/
def rowsOut {n : Nat} (xf : (⟨2, ![n, 8]⟩ : Shape).Idx → EReal) (W : (⟨2, ![8, 360]⟩ : Shape).Idx → EReal)
    (b : (⟨1, ![360]⟩ : Shape).Idx → EReal) : (⟨2, ![n, 360]⟩ : Shape).Idx → EReal :=
  fun i => max ((∑ k : Fin 8, xf (ix2 (i 0) k) * W (ix2 k (i 1))) + b (ix1 (i 1))) (Ideal.ofBits .f32 0x00000000#32)

/-- An output entry depends on one row of the matrix, one column of the weights and one entry of the bias: two
    evaluations, over matrices of any two heights, agree at a pair of indices as soon as those three agree there. -/
theorem rowsOut_congr {n N : Nat} (xf : (⟨2, ![n, 8]⟩ : Shape).Idx → EReal) (W : (⟨2, ![8, 360]⟩ : Shape).Idx → EReal)
    (b : (⟨1, ![360]⟩ : Shape).Idx → EReal) (XF : (⟨2, ![N, 8]⟩ : Shape).Idx → EReal) (W' : (⟨2, ![8, 360]⟩ : Shape).Idx → EReal)
    (b' : (⟨1, ![360]⟩ : Shape).Idx → EReal) (j : (⟨2, ![n, 360]⟩ : Shape).Idx) (i : (⟨2, ![N, 360]⟩ : Shape).Idx)
    (hx : ∀ k : Fin 8, xf (ix2 (j 0) k) = XF (ix2 (i 0) k)) (hW : ∀ k : Fin 8, W (ix2 k (j 1)) = W' (ix2 k (i 1)))
    (hb : b (ix1 (j 1)) = b' (ix1 (i 1))) : rowsOut xf W b j = rowsOut XF W' b' i := by
  unfold rowsOut
  rw [hb]
  exact congrArg (fun s => max (s + b' (ix1 (i 1))) (Ideal.ofBits .f32 0x00000000#32))
    (Finset.sum_congr rfl fun k _ => by rw [hx k, hW k])

/-- The whole result: the layer output of `x` read as `[262144, 8]`, read in turn as `[262144, 180, 1, 2]`. -/
def result (x : (⟨2, ![1048576, 2]⟩ : Shape).Idx → EReal) (W : (⟨2, ![8, 360]⟩ : Shape).Idx → EReal)
    (b : (⟨1, ![360]⟩ : Shape).Idx → EReal)
    (h1 : (⟨2, ![1048576, 2]⟩ : Shape).ShapeCasts ⟨2, ![262144, 8]⟩)
    (h2 : (⟨2, ![262144, 360]⟩ : Shape).ShapeCasts ⟨4, ![262144, 180, 1, 2]⟩) :
    (⟨4, ![262144, 180, 1, 2]⟩ : Shape).Idx → EReal :=
  shapeCast ⟨4, ![262144, 180, 1, 2]⟩ (rowsOut (shapeCast ⟨2, ![262144, 8]⟩ x h1) W b) h2

end Cert.DenseRelu

end
-- ==== Proof.KPayload.lean ====
/-
  What the kernel body stores, entry by entry. From a block `x0 : [4096, 8]` of the matrix, the weights `x1 : [8, 360]` and the
  bias `x2 : [360]` the body rounds both factors to bf16 (the identity on the extended reals), multiplies them on the
  matrix unit into a zero accumulator (entry `(p, q)` is `∑ k, x0 (p, k) · x1 (k, q)`), adds the bias laid along every row
  (entry `(p, q)` is `x2 q`) and takes the maximum with zero: `rowsOut` on 4096 rows.
-/
import proofs.«114720_j60644938219641_1_alg».proof.Proof.Gen.KernelIdeal.Skeleton
import proofs.«114720_j60644938219641_1_alg».proof.Proof.Spec
import Idealize.ShloMosaic.Lib.Pipeline.Value
import Idealize.ShloMosaic.Lib.ValueIdx
import Idealize.ShloMosaic.Lib.KernelVsHost
import Idealize.ShloMosaic.PureOps.Ideal.Laws

noncomputable section

namespace Cert.KernelIdeal.KValue

open Cert.KernelIdeal Cert.KernelIdeal.Gen
open Idealize.ShloMosaic Idealize.ShloMosaic.ValueIdx Cert.DenseRelu

/-! ## The operand indices of the block product: output `(p, q)`, contracted coordinate `k` ↦ `(p, k)` and `(k, q)` -/

theorem lhs_axis0 (i : S4096x360.Idx) (q : dot_S4096x8_S8x360_S4096x360_1_0_0_1_n_n.contr.Idx) :
    (dot_S4096x8_S8x360_S4096x360_1_0_0_1_n_n.lhsIdx i q 0).val = (i 0).val := by
  unfold DotDims.lhsIdx
  rw [dif_neg (show ¬(0 : Fin S4096x8.rank) ∈ dot_S4096x8_S8x360_S4096x360_1_0_0_1_n_n.lhsBatch by decide), dif_pos (show (0 : Fin S4096x8.rank) ∈ dot_S4096x8_S8x360_S4096x360_1_0_0_1_n_n.lhsNonContracting by decide)]
  rfl
theorem lhs_axis1 (i : S4096x360.Idx) (q : dot_S4096x8_S8x360_S4096x360_1_0_0_1_n_n.contr.Idx) :
    (dot_S4096x8_S8x360_S4096x360_1_0_0_1_n_n.lhsIdx i q 1).val = (q ⟨0, by decide⟩).val :=
  dot_S4096x8_S8x360_S4096x360_1_0_0_1_n_n.lhsIdx_val_of_single rfl i q
theorem rhs_axis0 (i : S4096x360.Idx) (q : dot_S4096x8_S8x360_S4096x360_1_0_0_1_n_n.contr.Idx) :
    (dot_S4096x8_S8x360_S4096x360_1_0_0_1_n_n.rhsIdx i q 0).val = (q ⟨0, by decide⟩).val :=
  dot_S4096x8_S8x360_S4096x360_1_0_0_1_n_n.rhsIdx_val_of_single rfl i q
theorem rhs_axis1 (i : S4096x360.Idx) (q : dot_S4096x8_S8x360_S4096x360_1_0_0_1_n_n.contr.Idx) :
    (dot_S4096x8_S8x360_S4096x360_1_0_0_1_n_n.rhsIdx i q 1).val = (i 1).val := by
  unfold DotDims.rhsIdx
  rw [dif_neg (show ¬(1 : Fin S8x360.rank) ∈ dot_S4096x8_S8x360_S4096x360_1_0_0_1_n_n.rhsBatch by decide), dif_pos (show (1 : Fin S8x360.rank) ∈ dot_S4096x8_S8x360_S4096x360_1_0_0_1_n_n.rhsNonContracting by decide)]
  rfl

/-- The block product into a zero accumulator, at entry `(p, q)`: the sum over the eight contracted coordinates. -/
theorem product_at (l : FVec Ideal S4096x8 .bf16) (r : FVec Ideal S8x360 .bf16) (p : Fin 4096) (q : Fin 360) :
    matmul dot_S4096x8_S8x360_S4096x360_1_0_0_1_n_n none l r (constant S4096x360 .f32 0x00000000#32) (ix2 p q)
      = ∑ k : Fin 8, l (ix2 p k) * r (ix2 k q) := by
  show FloatOps.matmul dot_S4096x8_S8x360_S4096x360_1_0_0_1_n_n none l r (constant S4096x360 .f32 0x00000000#32) (ix2 p q) = _
  rw [Ideal.matmul_constant_zero_apply, ← Equiv.sum_comp (contrEquiv1 dot_S4096x8_S8x360_S4096x360_1_0_0_1_n_n 8 rfl rfl).symm]
  refine Finset.sum_congr rfl fun k _ => ?_
  have hk := contrEquiv1_symm_val dot_S4096x8_S8x360_S4096x360_1_0_0_1_n_n 8 rfl rfl k
  have el : dot_S4096x8_S8x360_S4096x360_1_0_0_1_n_n.lhsIdx (ix2 p q) ((contrEquiv1 dot_S4096x8_S8x360_S4096x360_1_0_0_1_n_n 8 rfl rfl).symm k) = ix2 p k := funext fun a => Fin.ext (by
    match a with
    | ⟨0, _⟩ => exact lhs_axis0 _ _
    | ⟨1, _⟩ => exact (lhs_axis1 _ _).trans hk)
  have er : dot_S4096x8_S8x360_S4096x360_1_0_0_1_n_n.rhsIdx (ix2 p q) ((contrEquiv1 dot_S4096x8_S8x360_S4096x360_1_0_0_1_n_n 8 rfl rfl).symm k) = ix2 k q := funext fun a => Fin.ext (by
    match a with
    | ⟨0, _⟩ => exact (rhs_axis0 _ _).trans hk
    | ⟨1, _⟩ => exact rhs_axis1 _ _)
  rw [el, er]

/-- The bias read as one row and laid along every row of the block, at entry `(p, q)`: the bias at `q`. -/
theorem bias_at (x2 : FVec Ideal S360 .f32) (p : Fin 4096) (q : Fin 360) :
    broadcastTo S4096x360 (shapeCast S1x360 x2 shapeCasts_S360_S1x360) broadcasts_S1x360_S4096x360 (ix2 p q) = x2 (ix1 q) := by
  rw [broadcastTo_row_eq_broadcastInDim x2 shapeCasts_S360_S1x360 broadcasts_S1x360_S4096x360 (by decide)]
  exact broadcastInDim_apply _ _ x2 (ix2 p q) (ix1 q) (fun a => match a with
    | ⟨0, _⟩ => by show q.val = if (360 : Nat) = 1 then 0 else q.val; rw [if_neg (by decide)])

/-- The body's one payload is the rectified dense layer of its three loaded blocks. -/
theorem payload_eq (x0 : FVec Ideal S4096x8 .f32) (x1 : FVec Ideal S8x360 .f32) (x2 : FVec Ideal S360 .f32) :
    k0_pay1 (F := Ideal) x0 x1 x2 = rowsOut (n := 4096) x0 x1 x2 := by
  funext j
  obtain ⟨p, q, rfl⟩ : ∃ (p : Fin 4096) (q : Fin 360), j = ix2 p q := ⟨j 0, j 1, eq_ix2 j⟩
  unfold k0_pay1 rowsOut
  refine (congrArg₂ max (congrArg₂ (· + ·)
    (product_at (truncf .bf16 (shapeCast S4096x8 x0 shapeCasts_S4096x8_S4096x8) bitsLt_bf16_f32) (truncf .bf16 x1 bitsLt_bf16_f32) p q)
    (bias_at x2 p q)) rfl).trans ?_
  simp only [truncf_apply, shapeCast_self]
  rfl

end Cert.KernelIdeal.KValue

end
-- ==== Proof.KArray.lean ====
/-
  From blocks to the array. Grid point `t` (of 64) works on rows `4096·t … 4096·t + 4095`: its block of the matrix is those
  rows, its blocks of the weights and the bias are the whole arrays, and it writes back those rows of the layer output.
  Since an output row depends on the same row of the matrix only, what point `t` writes is block `t` of `rowsOut` of the whole
  matrix; the 64 blocks tile the 262144 rows (row `r` is in block `r / 4096`), so the output array ends at `rowsOut` of the
  matrix. The matrix is the input read row-major as `[262144, 8]` by the reshape before the launch, and the reshape after it
  reads the layer output as `[262144, 180, 1, 2]`.
-/
import proofs.«114720_j60644938219641_1_alg».proof.Proof.Gen.KernelIdeal.Frame
import proofs.«114720_j60644938219641_1_alg».proof.Proof.KPayload
import Idealize.ShloMosaic.Lib.Pipeline.Value
import Idealize.ShloMosaic.Lib.StableHlo.Run

set_option maxRecDepth 16384

noncomputable section

namespace Cert.KernelIdeal.KValue

open Cert.KernelIdeal Cert.KernelIdeal.Gen
open Idealize.ShloMosaic Idealize.ShloMosaic.TcCoe Idealize.ShloMosaic.ValueIdx Cert.DenseRelu
open Idealize.SL Idealize.SL.Sem
open Idealize.ShloMosaic.Pipeline (Dat Cfg Window)

variable (m : (ℓ : Loc nD τ sig) → Buf (Elt Ideal) ℓ) (ρ : Dev nD → PrngReg)

theorem zeros2 : (![0, 0] : Fin 2 → Nat) = fun _ => 0 := funext fun a => by fin_cases a <;> rfl
theorem zeros1 : (![0] : Fin 1 → Nat) = fun _ => 0 := funext fun a => by fin_cases a <;> rfl

/-- The matrix, the weights and the bias as the launch finds them. -/
abbrev xflat (c : Dev nD) : FVec Ideal S262144x8 .f32 := V m c main_v0
abbrev wts (c : Dev nD) : FVec Ideal S8x360 .f32 := V m c main_arg1
abbrev bias (c : Dev nD) : FVec Ideal S360 .f32 := V m c main_arg2

/-- The printed index maps over the 64 points: the matrix's block and the output's block are both block `t` of rows and
    the only block of columns; the weights and the bias have one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- What point `t` writes back is block `t` of `rowsOut` of the whole matrix. -/
theorem flushed_eq (c : Dev nD) (t : Fin cfg0.N) :
    (dats m 0 c).flushed 3 t = ((cfg0.win 3).blk t).view.read (Elt Ideal) (rowsOut (xflat m c) (wts m c) (bias m c)) := by
  show (cfg0.win 3).cut (grid0.coords t) ((dats m 0 c).after 3 t) = _
  rw [after0_3]
  unfold out0_3
  rw [View.canon_unit_zero zeros2]
  simp only [View.ld_unit_zero (S := S4096x8) zeros2, View.ld_unit_zero (S := S8x360) zeros2, View.ld_unit_zero (S := S360) zeros1]
  rw [payload_eq]
  obtain ⟨e0, e1, e2, e3, e4, e5, e6⟩ := idx_facts t
  funext j
  show rowsOut (iblk m c 0 t) (iblk m c 1 t) (iblk m c 2 t) j
    = rowsOut (xflat m c) (wts m c) (bias m c) (((cfg0.win 3).blk t).view.emb j)
  refine rowsOut_congr _ _ _ _ _ _ j _ (fun k => ?_) (fun k => ?_) ?_
  · have h0 : ((cfg0.win 0).blk t).view.emb (ix2 (j 0) k) = ix2 ((((cfg0.win 3).blk t).view.emb j) 0) k := by
      funext a; apply Fin.ext
      match a with
      | ⟨0, _⟩ => show win0_0.index t (0 : Fin 2) * 4096 + 1 * (j 0).val = win0_3.index t (0 : Fin 2) * 4096 + 1 * (j 0).val; omega
      | ⟨1, _⟩ => show win0_0.index t (1 : Fin 2) * 8 + 1 * k.val = k.val; omega
    show V m c main_v0 (((cfg0.win 0).blk t).view.emb (ix2 (j 0) k)) = V m c main_v0 (ix2 ((((cfg0.win 3).blk t).view.emb j) 0) k)
    exact congrArg (V m c main_v0) h0
  · have h1 : ((cfg0.win 1).blk t).view.emb (ix2 k (j 1)) = ix2 k ((((cfg0.win 3).blk t).view.emb j) 1) := by
      funext a; apply Fin.ext
      match a with
      | ⟨0, _⟩ => show win0_1.index t (0 : Fin 2) * 8 + 1 * k.val = k.val; omega
      | ⟨1, _⟩ => show win0_1.index t (1 : Fin 2) * 360 + 1 * (j 1).val = win0_3.index t (1 : Fin 2) * 360 + 1 * (j 1).val; omega
    show V m c main_arg1 (((cfg0.win 1).blk t).view.emb (ix2 k (j 1))) = V m c main_arg1 (ix2 k ((((cfg0.win 3).blk t).view.emb j) 1))
    exact congrArg (V m c main_arg1) h1
  · have h2 : ((cfg0.win 2).blk t).view.emb (ix1 (j 1)) = ix1 ((((cfg0.win 3).blk t).view.emb j) 1) := by
      funext a; apply Fin.ext
      match a with
      | ⟨0, _⟩ => show win0_2.index t (0 : Fin 1) * 360 + 1 * (j 1).val = win0_3.index t (1 : Fin 2) * 360 + 1 * (j 1).val; omega
    show V m c main_arg2 (((cfg0.win 2).blk t).view.emb (ix1 (j 1))) = V m c main_arg2 (ix1 ((((cfg0.win 3).blk t).view.emb j) 1))
    exact congrArg (V m c main_arg2) h2

/-- An index of the output array is in point `t`'s block iff each coordinate is in the block's range on its axis. -/
theorem mem_blk (t : Fin cfg0.N) (i : S262144x360.Idx) :
    i ∈ ((cfg0.win 3).blk t).view.set ↔ ∀ a : Fin 2, win0_3.index t a * S4096x360.size a ≤ (i a).val ∧ (i a).val < win0_3.index t a * S4096x360.size a + S4096x360.size a := by
  show i ∈ ((View.whole main_v1).slice (win0_3.rect t)).set ↔ _
  rw [View.set_slice_whole, Rect.mem_set_unit]
  exact Iff.rfl

/-- Row `r` of the output lies in the block of point `r / 4096`: the 64 blocks tile the array. -/
theorem cover (i : S262144x360.Idx) : ∃ t : Fin cfg0.N, (cfg0.win 3).flush t = true ∧ i ∈ ((cfg0.win 3).blk t).view.set := by
  have hi0 : (i 0).val < 262144 := (i 0).isLt
  have hi1 : (i 1).val < 360 := (i 1).isLt
  have hN : grid0.N = 64 := N_0
  have ht : (i 0).val / 4096 < grid0.N := by omega
  obtain ⟨e0, e1, e2, e3, e4, e5, e6⟩ := idx_facts ⟨(i 0).val / 4096, ht⟩
  refine ⟨⟨(i 0).val / 4096, ht⟩, flush0_3 _, ?_⟩
  rw [mem_blk]
  intro a
  match a with
  | ⟨0, _⟩ =>
    show win0_3.index ⟨(i 0).val / 4096, ht⟩ (0 : Fin 2) * 4096 ≤ (i 0).val ∧ (i 0).val < win0_3.index ⟨(i 0).val / 4096, ht⟩ (0 : Fin 2) * 4096 + 4096
    have e5' : win0_3.index ⟨(i 0).val / 4096, ht⟩ (0 : Fin 2) = (i 0).val / 4096 := e5
    omega
  | ⟨1, _⟩ =>
    show win0_3.index ⟨(i 0).val / 4096, ht⟩ (1 : Fin 2) * 360 ≤ (i 1).val ∧ (i 1).val < win0_3.index ⟨(i 0).val / 4096, ht⟩ (1 : Fin 2) * 360 + 360
    omega

/-- The output array after the launch: `rowsOut` of the matrix, the weights and the bias as the launch found them. -/
theorem final (c : Dev nD) : (dats m 0 c).arrAt 3 cfg0.N = rowsOut (xflat m c) (wts m c) (bias m c) :=
  (dats m 0 c).arrAt_eq_of_cover 3 (rowsOut (xflat m c) (wts m c) (bias m c)) (fun t _ => flushed_eq m c t) cover

/-- The matrix the launch finds is the input read row-major as `[262144, 8]`: the one host operation before the launch. -/
theorem xflat_eq (c : Dev nD) :
    xflat m c = shapeCast S262144x8 (m ((c : Thread nD τ).loc main_arg0)) shapeCasts_S1048576x2_S262144x8 := by
  show StableHlo.after hostOps0 (fun b => m (c, b)) (Proc.devRef .tc main_v0) = _
  after_results
  rfl

/-- The weights and the bias the launch finds are the arguments: no host operation before it writes them. -/
theorem wts_eq (c : Dev nD) : wts m c = m ((c : Thread nD τ).loc main_arg1) := V_main_arg1 m c
theorem bias_eq (c : Dev nD) : bias m c = m ((c : Thread nD τ).loc main_arg2) := V_main_arg2 m c

/-- After the lines that follow the launch, the result buffer holds the output array read as `[262144, 180, 1, 2]`. -/
theorem tail_eq (c : Dev nD) :
    Pipeline.afterTail₀ cfgs (dats m) 0 (V0 m) [hostOps1] c main_v2
      = shapeCast S262144x180x1x2 ((dats m 0 c).arrAt 3 cfg0.N) shapeCasts_S262144x360_S262144x180x1x2 := by
  unfold Pipeline.afterTail₀
  show StableHlo.after hostOps1 _ (Proc.devRef .tc main_v2) = _
  after_results
  have hw : Pipeline.withArrays (cfgs 0).spec c (V0 m c) (fun w => (dats m 0 c).arrAt w (cfgs 0).N) (Proc.devRef .tc main_v1)
      = (dats m 0 c).arrAt 3 cfg0.N := Pipeline.withArrays_arr spec0 launch0.win.arr_inj c _ _ 3
  exact congrArg (fun y => shapeCast S262144x180x1x2 y shapeCasts_S262144x360_S262144x180x1x2) hw

/-! ## The run, read -/

/-- Every weakly fair execution of the program ends with the result buffer at `result` of the three arguments, and the
    arguments as they were. -/
theorem run : θ_run defs (onTc (τ := τ) (main (F := Ideal))) ⟨m, fun _ => 0, ρ⟩ (fun r => ∀ c : Dev nD,
      r.2.mem ((c.tc : Thread nD τ).loc main_v2)
        = result (m ((c.tc : Thread nD τ).loc main_arg0)) (m ((c.tc : Thread nD τ).loc main_arg1)) (m ((c.tc : Thread nD τ).loc main_arg2))
            shapeCasts_S1048576x2_S262144x8 shapeCasts_S262144x360_S262144x180x1x2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(((h c).2 main_v2 (Pipeline.mem_restRefs_of main_v2 (by decide) (by decide))).trans (tail_eq m c)).trans (by
        rw [final, xflat_eq, wts_eq, bias_eq]; rfl),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.KValue

end
-- ==== Proof.RefValue.lean ====
/-
  The reference, read index by index. Its padding adds no row (low and high widths are zero), so the padded array is the
  input; its matrix product is, entry by entry, the sum over the eight contracted coordinates of row times column; the
  bias is the entry of `b` at the output's column; and the rectifier is the maximum with the zero word. Entry by entry
  that is `rowsOut` of the input read as `[262144, 8]`, and the final reading as `[262144, 180, 1, 2]` is the same on
  both sides.
-/
import proofs.«114720_j60644938219641_1_alg».proof.Proof.Gen.ReferenceIdeal.Read
import proofs.«114720_j60644938219641_1_alg».proof.Proof.Spec
import Idealize.ShloMosaic.Lib.KernelVsHost

noncomputable section

namespace Cert.ReferenceIdeal.RefValue

open Cert.ReferenceIdeal Cert.ReferenceIdeal.Gen Cert.ReferenceIdeal.Read
open Idealize.ShloMosaic Idealize.ShloMosaic.ValueIdx Cert.DenseRelu

/-- Padding by nothing on every side: each index of the result lies inside the operand, at the same coordinates. -/
theorem pad_nothing (x : FVec Ideal S1048576x2 .f32) : val_main_v0 (F := Ideal) x = x := by
  funext j
  unfold val_main_v0
  exact pad_apply_of_inside _ _ _ x _ pads_S1048576x2_S1048576x2_000_000 h_S_ j j (fun a => by
    match a with
    | ⟨0, _⟩ => show (j 0).val = 0 + (j 0).val * (0 + 1); omega
    | ⟨1, _⟩ => show (j 1).val = 0 + (j 1).val * (0 + 1); omega)

/-- The reference's layer output, before the last reshape, is `rowsOut` of the input read as `[262144, 8]`. -/
theorem layer_eq (x : FVec Ideal S1048576x2 .f32) (W : FVec Ideal S8x360 .f32) (b : FVec Ideal S360 .f32) :
    val_main_v6 (F := Ideal) x W b = rowsOut (shapeCast S262144x8 x shapeCasts_S1048576x2_S262144x8) W b := by
  funext i
  have e1 : val_main_v1 (F := Ideal) x = shapeCast S262144x8 x shapeCasts_S1048576x2_S262144x8 := by
    unfold val_main_v1; rw [pad_nothing]
  have el : ∀ k : Fin 8, lidx_main_v2 i k = ix2 (i 0) k := fun k => funext fun a => Fin.ext (by
    match a with
    | ⟨0, _⟩ => rfl
    | ⟨1, _⟩ => rfl)
  have er : ∀ k : Fin 8, ridx_main_v2 i k = ix2 k (i 1) := fun k => funext fun a => Fin.ext (by
    match a with
    | ⟨0, _⟩ => rfl
    | ⟨1, _⟩ => rfl)
  have eb : idx_main_v3 (idx_main_v4 i) = ix1 (i 1) := funext fun a => Fin.ext (by
    match a with
    | ⟨0, _⟩ => rfl)
  rw [val_main_v6_apply, val_main_v5_apply, val_main_v2_apply, val_main_v4_apply, val_main_v3_apply,
    val_main_call1_v0_apply, val_main_call1_cst_apply, e1, eb]
  simp only [el, er]
  rfl

/-- The reference's result is `result` of its three arguments. -/
theorem result_eq (x : FVec Ideal S1048576x2 .f32) (W : FVec Ideal S8x360 .f32) (b : FVec Ideal S360 .f32) :
    val_main_v7 (F := Ideal) x W b
      = result x W b shapeCasts_S1048576x2_S262144x8 shapeCasts_S262144x360_S262144x180x1x2 := by
  unfold val_main_v7 result
  rw [layer_eq]

end Cert.ReferenceIdeal.RefValue

end
-- ==== Proof.lean ====
/-
  A dense layer with bias and rectifier, `relu (xf · W + b)`, where `xf : [262144, 8]` is the input `x : [1048576, 2]` read
  row-major (four rows of `x` per row of `xf`) and the `[262144, 360]` output is returned read as `[262144, 180, 1, 2]`.

  The kernel streams `xf` through the matrix unit in 64 blocks of 4096 rows: each grid point rounds its block and the
  weights to bf16, multiplies them into a zero accumulator, adds the bias along every row and clamps at zero. The reference
  pads `x` by nothing, reshapes, and does the same three steps on all rows at once in f32. Over the extended reals a change
  of float format is the identity and a product into a zero accumulator is the plain sum of products, so entry `(r, j)` of
  both layer outputs is `max (∑ k : Fin 8, xf (r, k) · W (k, j) + b j) 0` — the same eight products summed the same way, so
  no law of arithmetic, and hence no finiteness of the inputs, is needed. Row `r` of the output reads row `r` of `xf`
  only, so the kernel's 64 row blocks are the restrictions of that one function and they tile the output.

  Proof/Spec.lean states the function (`rowsOut`, `result`); Proof/KPayload.lean reads the kernel body's stored value at an
  entry; Proof/KArray.lean carries it from the blocks to the output array and through the two reshapes around the launch;
  Proof/RefValue.lean reads the reference entry by entry. The three frames are the two generated kernel frames and the
  reference's run with its result dropped; the idealization rewrote nothing, so `preserves` is trivial.
-/
import proofs.«114720_j60644938219641_1_alg».proof.Defs
import proofs.«114720_j60644938219641_1_alg».proof.Proof.Gen.Kernel
import proofs.«114720_j60644938219641_1_alg».proof.Proof.Gen.Kernel.Skeleton
import proofs.«114720_j60644938219641_1_alg».proof.Proof.Gen.Kernel.Launch
import proofs.«114720_j60644938219641_1_alg».proof.Proof.Gen.Kernel.Points
import proofs.«114720_j60644938219641_1_alg».proof.Proof.Gen.Kernel.Frame
import proofs.«114720_j60644938219641_1_alg».proof.Proof.Gen.KernelIdeal
import proofs.«114720_j60644938219641_1_alg».proof.Proof.Gen.KernelIdeal.Skeleton
import proofs.«114720_j60644938219641_1_alg».proof.Proof.Gen.KernelIdeal.Launch
import proofs.«114720_j60644938219641_1_alg».proof.Proof.Gen.KernelIdeal.Points
import proofs.«114720_j60644938219641_1_alg».proof.Proof.Gen.KernelIdeal.Frame
import proofs.«114720_j60644938219641_1_alg».proof.Proof.Gen.ReferenceIdeal
import proofs.«114720_j60644938219641_1_alg».proof.Proof.Gen.ReferenceIdeal.Run
import proofs.«114720_j60644938219641_1_alg».proof.Proof.Gen.ReferenceIdeal.Read
import proofs.«114720_j60644938219641_1_alg».proof.Proof.Gen.Pre_finite_inputs
import proofs.«114720_j60644938219641_1_alg».proof.Proof.KArray
import proofs.«114720_j60644938219641_1_alg».proof.Proof.RefValue
import Idealize.ShloMosaic.Adequacy
import Idealize.ShloMosaic.Init

noncomputable section

namespace Cert.Proof

open Idealize.ShloMosaic Idealize.SL.Sem

theorem frame_kernel : Cert.frame_Kernel (hKernel := Cert.Kernel.Gen.facts) (hPre_finite_inputs := Cert.Pre_finite_inputs.Gen.facts) :=
  fun m ρ _ => Cert.Kernel.Gen.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result forgotten. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end with the result buffer at `result` of the arguments, which agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.result_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
